-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x128 .f32) (main_arg1 : IVec S2x3200000 32) (main_arg2 : FVec F S128x64 .f32) (main_arg3 : FVec F S64 .f32) (main_arg4 : IVec S8192x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S3301376x64 : Shape := ⟨2, ![3301376, 64]⟩
abbrev S3301376 : Shape := ⟨1, ![3301376]⟩
abbrev S3301376x1 : Shape := ⟨2, ![3301376, 1]⟩
abbrev S4096x64 : Shape := ⟨2, ![4096, 64]⟩
abbrev S4096x1 : Shape := ⟨2, ![4096, 1]⟩
abbrev S1x64 : Shape := ⟨2, ![1, 64]⟩
abbrev S8192x2x1 : Shape := ⟨3, ![8192, 2, 1]⟩
abbrev S8192x2x64 : Shape := ⟨3, ![8192, 2, 64]⟩

abbrev nBuf : Space → Nat
  | .hbm => 75
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S8192x2, .i32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S3300000, .i32⟩
  | .hbm, ⟨21, _⟩ => ⟨S3300000, .i1⟩
  | .hbm, ⟨22, _⟩ => ⟨S_, .i32⟩
  | .hbm, ⟨23, _⟩ => ⟨S3300000, .i32⟩
  | .hbm, ⟨24, _⟩ => ⟨S3300000, .i32⟩
  | .hbm, ⟨25, _⟩ => ⟨S3300000, .i32⟩
  | .hbm, ⟨26, _⟩ => ⟨S3300000x1, .i32⟩
  | .hbm, ⟨27, _⟩ => ⟨S3300000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S100000x64, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000x64, .f32⟩
  | .hbm, ⟨48, _⟩ => ⟨S_, .i32⟩
  | .hbm, ⟨49, _⟩ => ⟨S_, .f32⟩
  | .hbm, ⟨50, _⟩ => ⟨S3301376x64, .f32⟩
  | .hbm, ⟨51, _⟩ => ⟨S_, .i32⟩
  | .hbm, ⟨52, _⟩ => ⟨S_, .f32⟩
  | .hbm, ⟨53, _⟩ => ⟨S3301376, .f32⟩
  | .hbm, ⟨54, _⟩ => ⟨S_, .i32⟩
  | .hbm, ⟨55, _⟩ => ⟨S_, .i32⟩
  | .hbm, ⟨56, _⟩ => ⟨S3301376, .i32⟩
  | .hbm, ⟨57, _⟩ => ⟨S3301376x1, .f32⟩
  | .hbm, ⟨58, _⟩ => ⟨S3301376x64, .f32⟩
  | .hbm, ⟨59, _⟩ => ⟨S_, .f32⟩
  | .hbm, ⟨60, _⟩ => ⟨S100000x64, .f32⟩
  | .hbm, ⟨61, _⟩ => ⟨S3301376x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S8192x2, .i32⟩
  | .hbm, ⟨68, _⟩ => ⟨S8192x2, .i1⟩
  | .hbm, ⟨69, _⟩ => ⟨S_, .i32⟩
  | .hbm, ⟨70, _⟩ => ⟨S8192x2, .i32⟩
  | .hbm, ⟨71, _⟩ => ⟨S8192x2, .i32⟩
  | .hbm, ⟨72, _⟩ => ⟨S8192x2, .i32⟩
  | .hbm, ⟨73, _⟩ => ⟨S8192x2x1, .i32⟩
  | .hbm, ⟨74, _⟩ => ⟨S8192x2x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S4096x64, .f32⟩
  | .local _ .vmem, ⟨6, _⟩ => ⟨S4096x64, .f32⟩
  | .local _ .vmem, ⟨7, _⟩ => ⟨S4096x1, .f32⟩
  | .local _ .vmem, ⟨8, _⟩ => ⟨S4096x1, .f32⟩
  | .local _ .vmem, ⟨9, _⟩ => ⟨S4096x64, .f32⟩
  | .local _ .vmem, ⟨10, _⟩ => ⟨S4096x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_call0_v0 : Ref sig .tc := ⟨.hbm, 49, rfl⟩
abbrev main_v35 : Ref sig .tc := ⟨.hbm, 50, rfl⟩
abbrev main_c_7 : Ref sig .tc := ⟨.hbm, 51, rfl⟩
abbrev main_call1_v0 : Ref sig .tc := ⟨.hbm, 52, rfl⟩
abbrev main_v36 : Ref sig .tc := ⟨.hbm, 53, rfl⟩
abbrev main_c_8 : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![806], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  pads_S3300000x64_S3301376x64_013760_000 : S3300000x64.Pads (![0, 0] : Fin 2 → Nat) ![1376, 0] ![0, 0] S3301376x64
  h_S_ : 0 < S_.numel
  pads_S3300000_S3301376_013760 : S3300000.Pads (![0] : Fin 1 → Nat) ![1376] ![0] S3301376
  shapeCasts_S3301376_S3301376x1 : S3301376.ShapeCasts S3301376x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  bcast_S_S100000x64 : S_.BroadcastsInDim S100000x64 (![] : Fin 0 → Fin S100000x64.rank)
  bcast_S3301376_S3301376x1_0 : S3301376.BroadcastsInDim S3301376x1 (![0] : Fin 1 → Fin S3301376x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3301376x1_S3301376x64_1_0_0_1_wf : ScatterDims.WF S100000x64 S3301376x1 S3301376x64 [1] [0] [0] 1
  gather_S100000x64_S8192x2x1_S8192x2x64_2_0_n_n_0_2_164_wf : GatherDims.WF S100000x64 S8192x2x1 S8192x2x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S3301376x64.size a
  hwx1_0 : ∀ i : grid1.Coords, EltTy.bits .f32 = 32 ∨ (Rect.block (s := S3301376x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S3301376x1.size a
  hwx1_1 : ∀ i : grid1.Coords, EltTy.bits .f32 = 32 ∨ (Rect.block (s := S3301376x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S3301376x64.size a
  hwx1_2 : ∀ i : grid1.Coords, EltTy.bits .f32 = 32 ∨ (Rect.block (s := S3301376x64) S4096x64.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3301376x1_S3301376x64_1_0_0_1 : ScatterDims S100000x64 S3301376x1 S3301376x64 where
  updateWindowDims := [1]
  insertedWindowDims := [0]
  scatterDimsToOperandDims := [0]
  indexVectorDim := 1
  wf := scatter_S100000x64_S3301376x1_S3301376x64_1_0_0_1_wf
def gather_S100000x64_S8192x2x1_S8192x2x64_2_0_n_n_0_2_164 : GatherDims S100000x64 S8192x2x1 S8192x2x64 where
  offsetDims := [2]
  collapsedSliceDims := [0]
  operandBatchingDims := []
  startIndicesBatchingDims := []
  startIndexMap := [0]
  indexVectorDim := 2
  sliceSizes := ![1, 64]
  wf := gather_S100000x64_S8192x2x1_S8192x2x64_2_0_n_n_0_2_164_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S8192x2 : Shape := ⟨2, ![8192, 2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S8192x2x1 : Shape := ⟨3, ![8192, 2, 1]⟩
abbrev S8192x2x64 : Shape := ⟨3, ![8192, 2, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S8192x2, .i32⟩
  | .hbm, ⟨5, _⟩ => ⟨S100000, .i32⟩
  | .hbm, ⟨6, _⟩ => ⟨S1x3200000, .i32⟩
  | .hbm, ⟨7, _⟩ => ⟨S3200000, .i32⟩
  | .hbm, ⟨8, _⟩ => ⟨S3300000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S_, .f32⟩
  | .hbm, ⟨13, _⟩ => ⟨S3300000, .f32⟩
  | .hbm, ⟨14, _⟩ => ⟨S_, .f32⟩
  | .hbm, ⟨15, _⟩ => ⟨S100000, .f32⟩
  | .hbm, ⟨16, _⟩ => ⟨S3300000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S3300000, .i32⟩
  | .hbm, ⟨21, _⟩ => ⟨S3300000, .i1⟩
  | .hbm, ⟨22, _⟩ => ⟨S_, .i32⟩
  | .hbm, ⟨23, _⟩ => ⟨S3300000, .i32⟩
  | .hbm, ⟨24, _⟩ => ⟨S3300000, .i32⟩
  | .hbm, ⟨25, _⟩ => ⟨S3300000, .i32⟩
  | .hbm, ⟨26, _⟩ => ⟨S3300000x1, .i32⟩
  | .hbm, ⟨27, _⟩ => ⟨S3300000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S3300000, .f32⟩
  | .hbm, ⟨38, _⟩ => ⟨S100000x64, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000x64, .f32⟩
  | .hbm, ⟨48, _⟩ => ⟨S3300000x1, .f32⟩
  | .hbm, ⟨49, _⟩ => ⟨S3300000x64, .f32⟩
  | .hbm, ⟨50, _⟩ => ⟨S3300000x64, .f32⟩
  | .hbm, ⟨51, _⟩ => ⟨S_, .f32⟩
  | .hbm, ⟨52, _⟩ => ⟨S100000x64, .f32⟩
  | .hbm, ⟨53, _⟩ => ⟨S3300000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S8192x2, .i32⟩
  | .hbm, ⟨60, _⟩ => ⟨S8192x2, .i1⟩
  | .hbm, ⟨61, _⟩ => ⟨S_, .i32⟩
  | .hbm, ⟨62, _⟩ => ⟨S8192x2, .i32⟩
  | .hbm, ⟨63, _⟩ => ⟨S8192x2, .i32⟩
  | .hbm, ⟨64, _⟩ => ⟨S8192x2, .i32⟩
  | .hbm, ⟨65, _⟩ => ⟨S8192x2x1, .i32⟩
  | .hbm, ⟨66, _⟩ => ⟨S8192x2x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S8192x2 : S_.BroadcastsInDim S8192x2 (![] : Fin 0 → Fin S8192x2.rank)
  bcast_S8192x2_S8192x2x1_0_1 : S8192x2.BroadcastsInDim S8192x2x1 (![0, 1] : Fin 2 → Fin S8192x2x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  gather_S100000x64_S8192x2x1_S8192x2x64_2_0_n_n_0_2_164_wf : GatherDims.WF S100000x64 S8192x2x1 S8192x2x64 [2] [0] [] [0] [] 2 ![1, 64]

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def gather_S100000x64_S8192x2x1_S8192x2x64_2_0_n_n_0_2_164 : GatherDims S100000x64 S8192x2x1 S8192x2x64 where
  offsetDims := [2]
  collapsedSliceDims := [0]
  operandBatchingDims := []
  startIndicesBatchingDims := []
  startIndexMap := [0]
  indexVectorDim := 2
  sliceSizes := ![1, 64]
  wf := gather_S100000x64_S8192x2x1_S8192x2x64_2_0_n_n_0_2_164_wf

class Facts : Prop extends Facts₀ where

variable [Facts]
-- ==== Proof.Spec.lean ====
/-
  The two whole-array functions the kernel's two grid computations leave behind, at the ideal values.

  The first grid computation multiplies a 100000×128 matrix A by a 128×64 matrix B, ten thousand rows at a time:
  entry (r, h) of the result is Σ_l A(r, l)·B(l, h).  The second one scales every row of a 3301376×64 matrix X by the
  matching entry of a 3301376×1 column v: entry (n, e) of the result is X(n, e)·v(n, 0).
-/
import Idealize.ShloMosaic.PureOps.Ideal.Laws
import Idealize.ShloMosaic.Lib.ValueIdx

noncomputable section

open scoped BigOperators

namespace Cert.Spec

open Idealize.ShloMosaic Idealize.ShloMosaic.ValueIdx

/-- Rows of A against columns of B: entry (r, h) is Σ_l A(r, l)·B(l, h). -/
def rowsByCols (A : (⟨2, ![100000, 128]⟩ : Shape).Idx → EReal) (B : (⟨2, ![128, 64]⟩ : Shape).Idx → EReal) :
    (⟨2, ![100000, 64]⟩ : Shape).Idx → EReal :=
  fun i => ∑ l : Fin 128, A (ix2 (⟨(i 0).val, (i 0).isLt⟩ : Fin 100000) l) * B (ix2 l (⟨(i 1).val, (i 1).isLt⟩ : Fin 64))

theorem rowsByCols_apply (A : (⟨2, ![100000, 128]⟩ : Shape).Idx → EReal) (B : (⟨2, ![128, 64]⟩ : Shape).Idx → EReal)
    (r : Fin 100000) (h : Fin 64) :
    rowsByCols A B (ix2 r h) = ∑ l : Fin 128, A (ix2 r l) * B (ix2 l h) := rfl

/-- Every row of X scaled by its entry of the column v: entry (n, e) is X(n, e)·v(n, 0). -/
def scaleRows (X : (⟨2, ![3301376, 64]⟩ : Shape).Idx → EReal) (v : (⟨2, ![3301376, 1]⟩ : Shape).Idx → EReal) :
    (⟨2, ![3301376, 64]⟩ : Shape).Idx → EReal :=
  fun i => X i * v (ix2 (⟨(i 0).val, (i 0).isLt⟩ : Fin 3301376) (0 : Fin 1))

theorem scaleRows_apply (X : (⟨2, ![3301376, 64]⟩ : Shape).Idx → EReal) (v : (⟨2, ![3301376, 1]⟩ : Shape).Idx → EReal)
    (n : Fin 3301376) (e : Fin 64) :
    scaleRows X v (ix2 n e) = X (ix2 n e) * v (ix2 n (0 : Fin 1)) := rfl

end Cert.Spec

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.LinearRegion.lean ====
/-
  The first grid computation's result array: the product of the two argument matrices, whole.
-/
import proofs.«175360_j16801912062662_1_alg».proof.Proof.Gen.KernelIdeal.Frame
import proofs.«175360_j16801912062662_1_alg».proof.Proof.Spec
import proofs.«175360_j16801912062662_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LinearRegion

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as a constant function. -/
private theorem zero_off : (![0, 0] : Fin 2 → Nat) = fun _ => 0 := funext fun a => by fin_cases a <;> rfl

/-- The body's one stored value, read at (p, h): row p of the first block against column h of the second. The two
    narrowings to bf16 are the identity on the extended reals, and the product starts from the zero accumulator. -/
private theorem stored_apply (x0 : Vec Ideal S10000x128 .f32) (x1 : Vec Ideal S128x64 .f32) (p : Fin 10000) (h : Fin 64) :
    k0_pay1 x0 x1 (ix2 p h) = ∑ l : Fin 128, x0 (ix2 p l) * x1 (ix2 l h) := by
  unfold k0_pay1 dot_S10000x128_S128x64_S10000x64_1_0_0_1_n_n
  exact DenseLayer.matmul_rows_apply _ none _ _ p h

/-- The index maps over the ten grid points: the row blocks of the first argument and of the result move with the
    point, the second argument's one block stays. -/
private theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The first argument's block at point t is its rows 10000·t … 10000·t + 9999: a block's coordinate is the block index
    times the block's extent plus the coordinate inside the block. -/
private theorem rows_block_apply (c : Dev nD) (t : Fin cfg0.N) (y : S10000x128.Idx) (k : S100000x128.Idx)
    (hk0 : (k 0).val = 10000 * t.val + (y 0).val) (hk1 : (k 1).val = (y 1).val) :
    (iblk0 V c 0 t : Vec Ideal S10000x128 .f32) y = (V c main_arg0 : S100000x128.Idx → EReal) k := by
  obtain ⟨e0, e1, -, -, -, -⟩ := block_indices t
  unfold iblk0
  rw [View.read_apply]
  show V c main_arg0 _ = V c main_arg0 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- The second argument's block at every point is the whole 128×64 array. -/
private theorem whole_block_apply (c : Dev nD) (t : Fin cfg0.N) (y : S128x64.Idx) (k : S128x64.Idx)
    (hk0 : (k 0).val = (y 0).val) (hk1 : (k 1).val = (y 1).val) :
    (iblk0 V c 1 t : Vec Ideal S128x64 .f32) y = (V c main_arg2 : S128x64.Idx → EReal) k := by
  obtain ⟨-, -, e2, e3, -, -⟩ := block_indices t
  unfold iblk0
  rw [View.read_apply]
  show V c main_arg2 _ = V c main_arg2 _
  congr 1
  funext a
  apply Fin.ext
  match a with
  | ⟨0, _⟩ => show win0_1.index t (0 : Fin 2) * 128 + 1 * (y 0).val = (k 0).val; rw [e2, hk0]; omega
  | ⟨1, _⟩ => show win0_1.index t (1 : Fin 2) * 64 + 1 * (y 1).val = (k 1).val; rw [e3, hk1]; omega

/-- What point t writes back is block t of the product of the two arguments as the computation finds them. -/
private theorem written_back (c : Dev nD) (t : Fin cfg0.N) :
    (dat0 (F := Ideal) V c).flushed 2 t
      = ((cfg0.win 2).blk t).view.read (Elt Ideal) (Cert.Spec.rowsByCols (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S10000x128) zero_off, View.ld_unit_zero (S := S128x64) zero_off]
  obtain ⟨-, -, -, -, e4, e5⟩ := block_indices t
  funext j
  obtain ⟨p, h, rfl⟩ : ∃ (p : Fin 10000) (h : Fin 64), j = ix2 p h := ⟨j 0, j 1, eq_ix2 j⟩
  refine (stored_apply (iblk0 V c 0 t) (iblk0 V c 1 t) p h).trans ?_
  rw [View.read_apply]
  show _ = Cert.Spec.rowsByCols (V c main_arg0) (V c main_arg2) (((cfg0.win 2).blk t).view.emb (ix2 p h))
  unfold Cert.Spec.rowsByCols
  refine Finset.sum_congr rfl fun l _ => ?_
  congr 1
  · refine rows_block_apply V c t (ix2 p l) _ ?_ rfl
    show win0_2.index t (0 : Fin 2) * 10000 + 1 * p.val = 10000 * t.val + p.val
    rw [e4]; omega
  · refine whole_block_apply V c t (ix2 l h) _ rfl ?_
    show win0_2.index t (1 : Fin 2) * 64 + 1 * h.val = h.val
    rw [e5]; omega

/-- An index of the result array is in point t's block iff each coordinate is in the block's range on its axis. -/
private theorem mem_block (t : Fin cfg0.N) (i : S100000x64.Idx) :
    i ∈ ((cfg0.win 2).blk t).view.set
      ↔ ∀ a : Fin 2, win0_2.index t a * S10000x64.size a ≤ (i a).val
          ∧ (i a).val < win0_2.index t a * S10000x64.size a + S10000x64.size a := by
  show i ∈ ((View.whole main_v27).slice (win0_2.rect t)).set ↔ _
  rw [View.set_slice_whole, Rect.mem_set_unit]
  exact Iff.rfl

/-- Row r of the result lies in the block of point r / 10000, and every point writes its block back: the ten row
    blocks fill the array. -/
private theorem blocks_fill (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  let t : Fin cfg0.N := ⟨(i 0).val / 10000, by rw [hN]; omega⟩
  obtain ⟨-, -, -, -, e4, e5⟩ := block_indices t
  have ht : t.val = (i 0).val / 10000 := rfl
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- After the ten grid points the result array holds the product of the two matrices the computation was entered with. -/
theorem final (c : Dev nD) :
    (dat0 (F := Ideal) V c).arrAt 2 cfg0.N = Cert.Spec.rowsByCols (V c main_arg0) (V c main_arg2) := by
  exact (dat0 (F := Ideal) V c).arrAt_eq_of_cover 2 (Cert.Spec.rowsByCols (V c main_arg0) (V c main_arg2))
    (fun t _ => written_back V c t) blocks_fill

end Cert.KernelIdeal.LinearRegion

end
-- ==== Proof.ScaleRegion.lean ====
/-
  The second grid computation's result array: every row of its first operand scaled by the matching entry of its second.
-/
import proofs.«175360_j16801912062662_1_alg».proof.Proof.Gen.KernelIdeal.Frame
import proofs.«175360_j16801912062662_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ScaleRegion

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-block access, as a constant function. -/
private theorem zeroOff : (![0, 0] : Fin 2 → Nat) = fun _ => 0 := funext fun a => by fin_cases a <;> rfl

/-- An [a, 1] column broadcast to [a, b] reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at entry (p, e) of the block: the first block's entry times the column block's entry of row p. -/
private theorem pay_apply (x0 : Vec Ideal S4096x64 .f32) (x1 : Vec Ideal S4096x1 .f32) (p : Fin 4096) (e : Fin 64) :
    k1_pay1 x0 x1 (ix2 p e) = x0 (ix2 p e) * x1 (ix2 p (0 : Fin 1)) := by
  unfold k1_pay1
  rw [shapeCast_self, shapeCast_self]
  exact congrArg (x0 (ix2 p e) * ·) (broadcastTo_a1_ab_apply x1 broadcasts_S4096x1_S4096x64 p e)

/-- The three windows' block indices at grid point t: block t on the rows, block 0 on the columns. -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- An index of the array is in point t's block iff each coordinate is in the block's range on its axis. -/
private theorem mem_blk (t : Fin cfg1.N) (i : S3301376x64.Idx) :
    i ∈ ((cfg1.win 2).blk t).view.set ↔ ∀ a : Fin 2, win1_2.index t a * S4096x64.size a ≤ (i a).val
      ∧ (i a).val < win1_2.index t a * S4096x64.size a + S4096x64.size a := by
  show i ∈ ((View.whole main_v39).slice (win1_2.rect t)).set ↔ _
  rw [View.set_slice_whole, Rect.mem_set_unit]
  exact Iff.rfl

/-- Row n of the array lies in the block of point n / 4096, and 806 · 4096 rows are all the rows: the blocks cover the array. -/
private theorem covered (i : S3301376x64.Idx) :
    ∃ t : Fin cfg1.N, (cfg1.win 2).flush t = true ∧ i ∈ ((cfg1.win 2).blk t).view.set := by
  have hN : cfg1.N = 806 := N_1
  have hi0 : (i 0).val < 3301376 := (i 0).isLt
  have hi1 : (i 1).val < 64 := (i 1).isLt
  obtain ⟨t, ht⟩ : ∃ t : Fin cfg1.N, t.val = (i 0).val / 4096 := ⟨⟨(i 0).val / 4096, by omega⟩, rfl⟩
  obtain ⟨-, -, -, -, e4, e5⟩ := idx_facts t
  refine ⟨t, flush1_2 t, ?_⟩
  rw [mem_blk]
  intro a
  match a with
  | ⟨0, _⟩ =>
    show win1_2.index t 0 * 4096 ≤ (i 0).val ∧ (i 0).val < win1_2.index t 0 * 4096 + 4096
    rw [e4, ht]; omega
  | ⟨1, _⟩ =>
    show win1_2.index t 1 * 64 ≤ (i 1).val ∧ (i 1).val < win1_2.index t 1 * 64 + 64
    rw [e5]; omega

variable (V : (c : Dev nD) → (b : Ref sig .tc) → Buf (Elt Ideal) ((c : Thread nD τ).loc b))

/-- Entry (p, e) of the first operand's block at point t is entry (4096·t + p, e) of the array. -/
private theorem blk0_apply (c : Dev nD) (t : Fin cfg1.N) (p : Fin 4096) (e : Fin 64) (n : Fin 3301376)
    (hn : n.val = 4096 * t.val + p.val) :
    (iblk1 V c 0 t : Vec Ideal S4096x64 .f32) (ix2 p e) = (V c main_v35 : S3301376x64.Idx → EReal) (ix2 n e) := by
  obtain ⟨e0, e1, -, -, -, -⟩ := idx_facts t
  unfold iblk1
  rw [View.read_apply]
  show V c main_v35 _ = V c main_v35 _
  congr 1
  funext a
  apply Fin.ext
  match a with
  | ⟨0, _⟩ => show win1_0.index t 0 * 4096 + 1 * p.val = n.val; rw [e0, hn]; omega
  | ⟨1, _⟩ => show win1_0.index t 1 * 64 + 1 * e.val = e.val; rw [e1]; omega

/-- Entry (p, 0) of the column's block at point t is entry (4096·t + p, 0) of the column. -/
private theorem blk1_apply (c : Dev nD) (t : Fin cfg1.N) (p : Fin 4096) (n : Fin 3301376)
    (hn : n.val = 4096 * t.val + p.val) :
    (iblk1 V c 1 t : Vec Ideal S4096x1 .f32) (ix2 p (0 : Fin 1)) = (V c main_v38 : S3301376x1.Idx → EReal) (ix2 n (0 : Fin 1)) := by
  obtain ⟨-, -, e2, e3, -, -⟩ := idx_facts t
  unfold iblk1
  rw [View.read_apply]
  show V c main_v38 _ = V c main_v38 _
  congr 1
  funext a
  apply Fin.ext
  match a with
  | ⟨0, _⟩ => show win1_1.index t 0 * 4096 + 1 * p.val = n.val; rw [e2, hn]; omega
  | ⟨1, _⟩ => show win1_1.index t 1 * 1 + 1 * 0 = 0; rw [e3]

/-- The body's result at entry (p, e) of point t's block is the scaled array's entry under that block entry. -/
private theorem out_apply (c : Dev nD) (t : Fin cfg1.N) (p : Fin 4096) (e : Fin 64) :
    k1_pay1 (iblk1 V c 0 t) (iblk1 V c 1 t) (ix2 p e)
      = Cert.Spec.scaleRows (V c main_v35) (V c main_v38) (((cfg1.win 2).blk t).view.emb (ix2 p e)) := by
  obtain ⟨-, -, -, -, e4, e5⟩ := idx_facts t
  have hN : cfg1.N = 806 := N_1
  have ht : t.val < 806 := by have := t.isLt; omega
  have hp : p.val < 4096 := p.isLt
  have hemb : ((cfg1.win 2).blk t).view.emb (ix2 p e)
      = (ix2 (⟨4096 * t.val + p.val, by omega⟩ : Fin 3301376) e : S3301376x64.Idx) := by
    funext a
    apply Fin.ext
    match a with
    | ⟨0, _⟩ => show win1_2.index t 0 * 4096 + 1 * p.val = 4096 * t.val + p.val; rw [e4]; omega
    | ⟨1, _⟩ => show win1_2.index t 1 * 64 + 1 * e.val = e.val; rw [e5]; omega
  rw [hemb, Cert.Spec.scaleRows_apply]
  refine (pay_apply _ _ p e).trans ?_
  exact congrArg₂ (· * ·) (blk0_apply V c t p e _ rfl) (blk1_apply V c t p _ rfl)

/-- What point t writes back is block t of the scaled array. -/
private theorem flushed_eq (c : Dev nD) (t : Fin cfg1.N) :
    (dat1 (F := Ideal) V c).flushed 2 t
      = ((cfg1.win 2).blk t).view.read (Elt Ideal) (Cert.Spec.scaleRows (V c main_v35) (V c main_v38)) := by
  show (cfg1.win 2).cut (grid1.coords t) ((dat1 V c).after 2 t) = _
  rw [after1_2]
  unfold out1_2
  rw [View.canon_unit_zero zeroOff]
  simp only [View.ld_unit_zero (S := S4096x64) zeroOff, View.ld_unit_zero (S := S4096x1) zeroOff]
  funext j
  obtain ⟨p, e, rfl⟩ : ∃ (p : Fin 4096) (e : Fin 64), j = ix2 p e := ⟨j 0, j 1, eq_ix2 j⟩
  exact out_apply V c t p e

/-- After the 806 grid points the result array holds the rows of the first operand, each scaled by its entry of the column. -/
theorem final (c : Dev nD) :
    (dat1 (F := Ideal) V c).arrAt 2 cfg1.N = Cert.Spec.scaleRows (V c main_v35) (V c main_v38) := by
  exact (dat1 (F := Ideal) V c).arrAt_eq_of_cover 2 (Cert.Spec.scaleRows (V c main_v35) (V c main_v38))
    (fun t _ => flushed_eq V c t) covered

end Cert.KernelIdeal.ScaleRegion

end
-- ==== Proof.KernelTerm.lean ====
/-
  The kernel's result as one term of its five arguments, at the ideal values.

  Up to the product features·W, the kernel's program and the reference apply the same host operations: the source and
  destination node of every edge (the given edges followed by one self loop per node), the degree of every node, and
  the per-edge weight  norm(n) = deg(src n)^(-1/2) · deg(dst n)^(-1/2).  Those shared values are named here by the
  reference's own stage functions.  What the kernel does differently comes after: it gathers the rows of the product
  by source node, appends 1376 zero rows so that the 3300000 edges fill 806 blocks of 4096, appends 1376 zeros to the
  weights and 1376 zero words to the destinations, scales every row by its weight, and accumulates row n into row
  dst(n) of a zero matrix.  Then both programs add the bias to every row and gather the rows the index array x names.
-/
import proofs.«175360_j16801912062662_1_alg».proof.Proof.Gen.KernelIdeal
import proofs.«175360_j16801912062662_1_alg».proof.Proof.Gen.ReferenceIdeal.Read
import proofs.«175360_j16801912062662_1_alg».proof.Proof.Spec

noncomputable section

namespace Cert.KernelIdeal.Term

open Cert.KernelIdeal Cert.KernelIdeal.Gen Idealize.ShloMosaic

/-- The rows of H gathered by source node (negative words counted from the end, as the reference does), followed by
    1376 rows of the padding value, the integer zero converted. -/
def paddedRows (H : (⟨S100000x64, .f32⟩ : BufTy).Contents (Elt Ideal)) (x1 : (⟨S2x3200000, .i32⟩ : BufTy).Contents (Elt Ideal)) :
    (⟨S3301376x64, .f32⟩ : BufTy).Contents (Elt Ideal) :=
  pad S3301376x64 ![0, 0] ![1376, 0] ![0, 0]
    (Host.gather gather_S100000x64_S3300000x1_S3300000x64_1_0_n_n_0_1_164 H (Cert.ReferenceIdeal.Read.val_main_v33 (F := Ideal) x1))
    (sitofp (F := Ideal) .f32 (constantI S_ 32 0#32)) pads_S3300000x64_S3301376x64_013760_000 h_S_

/-- The per-edge weights followed by 1376 entries of the padding value, as a column. -/
def paddedWeights (x1 : (⟨S2x3200000, .i32⟩ : BufTy).Contents (Elt Ideal)) : (⟨S3301376x1, .f32⟩ : BufTy).Contents (Elt Ideal) :=
  shapeCast S3301376x1
    (pad S3301376 ![0] ![1376] ![0] (Cert.ReferenceIdeal.Read.val_main_v26 (F := Ideal) x1) (sitofp (F := Ideal) .f32 (constantI S_ 32 0#32))
      pads_S3300000_S3301376_013760 h_S_)
    shapeCasts_S3301376_S3301376x1

/-- The destination nodes followed by 1376 zero words. -/
def paddedDst (x1 : (⟨S2x3200000, .i32⟩ : BufTy).Contents (Elt Ideal)) : (⟨S3301376, .i32⟩ : BufTy).Contents (Elt Ideal) :=
  pad S3301376 ![0] ![1376] ![0] (Cert.ReferenceIdeal.Read.val_main_v6 (F := Ideal) x1) (id (constantI S_ 32 0#32))
    pads_S3300000_S3301376_013760 h_S_

/-- The scaled rows accumulated by destination node into a zero matrix. -/
def aggregated (H : (⟨S100000x64, .f32⟩ : BufTy).Contents (Elt Ideal)) (x1 : (⟨S2x3200000, .i32⟩ : BufTy).Contents (Elt Ideal)) :
    (⟨S100000x64, .f32⟩ : BufTy).Contents (Elt Ideal) :=
  Host.scatterAdd (F := Ideal) scatter_S100000x64_S3301376x1_S3301376x64_1_0_0_1
    (broadcastInDim S100000x64 ![] bcast_S_S100000x64 (constant (F := Ideal) S_ .f32 0x00000000#32))
    (broadcastInDim S3301376x1 ![0] bcast_S3301376_S3301376x1_0 (paddedDst x1))
    (Cert.Spec.scaleRows (paddedRows H x1) (paddedWeights x1))

/-- The bias added to every row, then the rows the index array names (negative words counted from the end). -/
def biasedRows (agg : (⟨S100000x64, .f32⟩ : BufTy).Contents (Elt Ideal)) (x3 : (⟨S64, .f32⟩ : BufTy).Contents (Elt Ideal))
    (x4 : (⟨S8192x2, .i32⟩ : BufTy).Contents (Elt Ideal)) : (⟨S8192x2x64, .f32⟩ : BufTy).Contents (Elt Ideal) :=
  Host.gather gather_S100000x64_S8192x2x1_S8192x2x64_2_0_n_n_0_2_164
    (addf (F := Ideal) (φ := .f32) agg
      (broadcastInDim S100000x64 ![0, 1] bcast_S1x64_S100000x64_0_1 (broadcastInDim S1x64 ![1] bcast_S64_S1x64_1 x3)))
    (broadcastInDim S8192x2x1 ![0, 1] bcast_S8192x2_S8192x2x1_0_1
      (select (cmpi .slt x4 (broadcastInDim S8192x2 ![] bcast_S_S8192x2 (constantI S_ 32 0#32)))
        (addi x4 (broadcastInDim S8192x2 ![] bcast_S_S8192x2 (constantI S_ 32 100000#32))) x4))

/-- The kernel's result. -/
def result (x0 : (⟨S100000x128, .f32⟩ : BufTy).Contents (Elt Ideal)) (x1 : (⟨S2x3200000, .i32⟩ : BufTy).Contents (Elt Ideal))
    (x2 : (⟨S128x64, .f32⟩ : BufTy).Contents (Elt Ideal)) (x3 : (⟨S64, .f32⟩ : BufTy).Contents (Elt Ideal))
    (x4 : (⟨S8192x2, .i32⟩ : BufTy).Contents (Elt Ideal)) : (⟨S8192x2x64, .f32⟩ : BufTy).Contents (Elt Ideal) :=
  biasedRows (aggregated (Cert.Spec.rowsByCols x0 x2) x1) x3 x4

end Cert.KernelIdeal.Term

end
-- ==== Proof.HostChain.lean ====
/-
  The kernel's result buffer, read back to the arguments.

  The program is a host stretch, the first grid computation, seven short host stretches, the second grid computation,
  and a last host stretch.  Boundary by boundary: the first stretch computes the edge list with self loops, the degrees
  and the per-edge weights from the edge array alone; the first grid computation leaves the product of the feature and
  weight matrices in its result array and touches nothing else; the middle stretches gather the product's rows by source
  node and append the zero rows, zero weights and zero destination words; the second grid computation leaves every
  padded row scaled by its weight; the last stretch accumulates the scaled rows by destination, adds the bias and
  gathers the requested rows.  Composed, the result buffer holds `Term.result` of the five arguments.
-/
import proofs.«175360_j16801912062662_1_alg».proof.Proof.Gen.KernelIdeal.Frame
import proofs.«175360_j16801912062662_1_alg».proof.Proof.LinearRegion
import proofs.«175360_j16801912062662_1_alg».proof.Proof.ScaleRegion
import proofs.«175360_j16801912062662_1_alg».proof.Proof.KernelTerm
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Entering the first grid computation -/

/-- Its two operands are the feature and weight matrices as launched. -/
theorem entry0_features (c : Dev nD) : V1 m ρ c main_arg0 = m ((c : Thread nD τ).loc main_arg0) := by
  dsimp only [V1, W1, hostOps0]
  after_results_simp

theorem entry0_weights (c : Dev nD) : V1 m ρ c main_arg2 = m ((c : Thread nD τ).loc main_arg2) := by
  dsimp only [V1, W1, hostOps0]
  after_results_simp

set_option maxHeartbeats 4000000 in
/-- The source nodes: the given edges' sources, then one self loop per node. -/
theorem entry0_src (c : Dev nD) :
    W1 m ρ c (Proc.devRef .tc main_v3) = Cert.ReferenceIdeal.Read.val_main_v3 (F := Ideal) (m ((c : Thread nD τ).loc main_arg1)) := by
  dsimp only [W1, hostOps0]
  after_results_simp
  rfl

set_option maxHeartbeats 4000000 in
/-- The destination nodes. -/
theorem entry0_dst (c : Dev nD) :
    W1 m ρ c (Proc.devRef .tc main_v6) = Cert.ReferenceIdeal.Read.val_main_v6 (F := Ideal) (m ((c : Thread nD τ).loc main_arg1)) := by
  dsimp only [W1, hostOps0]
  after_results_simp
  rfl

set_option maxHeartbeats 4000000 in
/-- The per-edge weights. -/
theorem entry0_norm (c : Dev nD) :
    W1 m ρ c (Proc.devRef .tc main_v26) = Cert.ReferenceIdeal.Read.val_main_v26 (F := Ideal) (m ((c : Thread nD τ).loc main_arg1)) := by
  dsimp only [W1, hostOps0]
  after_results_simp
  rfl

/-! ## Leaving the first grid computation -/

/-- Its result array holds the product of the two matrices. -/
theorem exit0_product (c : Dev nD) :
    W2 m ρ c (Proc.devRef .tc main_v27)
      = Cert.Spec.rowsByCols (m ((c : Thread nD τ).loc main_arg0)) (m ((c : Thread nD τ).loc main_arg2)) :=
  (W2_arr m ρ c 2).trans ((LinearRegion.final (V1 m ρ) c).trans
    (congrArg₂ Cert.Spec.rowsByCols (entry0_features m ρ c) (entry0_weights m ρ c)))

/-- The edge list and the weights are as they were. -/
theorem exit0_src (c : Dev nD) :
    W2 m ρ c (Proc.devRef .tc main_v3) = Cert.ReferenceIdeal.Read.val_main_v3 (F := Ideal) (m ((c : Thread nD τ).loc main_arg1)) :=
  (W2_of_ne m ρ c main_v3 (by decide)).trans (entry0_src m ρ c)

theorem exit0_dst (c : Dev nD) :
    W2 m ρ c (Proc.devRef .tc main_v6) = Cert.ReferenceIdeal.Read.val_main_v6 (F := Ideal) (m ((c : Thread nD τ).loc main_arg1)) :=
  (W2_of_ne m ρ c main_v6 (by decide)).trans (entry0_dst m ρ c)

theorem exit0_norm (c : Dev nD) :
    W2 m ρ c (Proc.devRef .tc main_v26) = Cert.ReferenceIdeal.Read.val_main_v26 (F := Ideal) (m ((c : Thread nD τ).loc main_arg1)) :=
  (W2_of_ne m ρ c main_v26 (by decide)).trans (entry0_norm m ρ c)

/-! ## Entering the second grid computation

    In each of the three reads below the data the middle stretches only move around (the gathered rows, the weights, the
    destination words) are replaced by a variable before the two spellings of the padded array are compared, so that the
    comparison is about the padding alone. -/

/-- Its first operand: the product's rows gathered by source node, then the zero rows. -/
theorem entry1_rows (c : Dev nD) :
    V9 m ρ c main_v35
      = Term.paddedRows (Cert.Spec.rowsByCols (m ((c : Thread nD τ).loc main_arg0)) (m ((c : Thread nD τ).loc main_arg2)))
          (m ((c : Thread nD τ).loc main_arg1)) := by
  show _ = pad S3301376x64 ![0, 0] ![1376, 0] ![0, 0]
    (Host.gather gather_S100000x64_S3300000x1_S3300000x64_1_0_n_n_0_1_164
      (Cert.Spec.rowsByCols (m ((c : Thread nD τ).loc main_arg0)) (m ((c : Thread nD τ).loc main_arg2)))
      (broadcastInDim S3300000x1 ![0] bcast_S3300000_S3300000x1_0
        (select
          (cmpi .slt (Cert.ReferenceIdeal.Read.val_main_v3 (F := Ideal) (m ((c : Thread nD τ).loc main_arg1)))
            (broadcastInDim S3300000 ![] bcast_S_S3300000 (constantI S_ 32 0#32)))
          (addi (Cert.ReferenceIdeal.Read.val_main_v3 (F := Ideal) (m ((c : Thread nD τ).loc main_arg1)))
            (broadcastInDim S3300000 ![] bcast_S_S3300000 (constantI S_ 32 100000#32)))
          (Cert.ReferenceIdeal.Read.val_main_v3 (F := Ideal) (m ((c : Thread nD τ).loc main_arg1))))))
    (sitofp (F := Ideal) .f32 (constantI S_ 32 0#32)) pads_S3300000x64_S3301376x64_013760_000 h_S_
  dsimp only [V9, W9, W8, W7, W6, W5, W4, W3, hostOps1, hostOps1_1, hostOps1_2, hostOps1_3, hostOps1_4, hostOps1_5, hostOps1_6]
  after_results_simp
  rw [exit0_product, exit0_src]
  generalize Host.gather gather_S100000x64_S3300000x1_S3300000x64_1_0_n_n_0_1_164
      (Cert.Spec.rowsByCols (m ((c : Thread nD τ).loc main_arg0)) (m ((c : Thread nD τ).loc main_arg2)))
      (broadcastInDim S3300000x1 ![0] bcast_S3300000_S3300000x1_0
        (select
          (cmpi .slt (Cert.ReferenceIdeal.Read.val_main_v3 (F := Ideal) (m ((c : Thread nD τ).loc main_arg1)))
            (broadcastInDim S3300000 ![] bcast_S_S3300000 (constantI S_ 32 0#32)))
          (addi (Cert.ReferenceIdeal.Read.val_main_v3 (F := Ideal) (m ((c : Thread nD τ).loc main_arg1)))
            (broadcastInDim S3300000 ![] bcast_S_S3300000 (constantI S_ 32 100000#32)))
          (Cert.ReferenceIdeal.Read.val_main_v3 (F := Ideal) (m ((c : Thread nD τ).loc main_arg1))))) = Y
  rfl

/-- One stretch before the second grid computation the weights, then zeros, are a vector. -/
theorem stage_weights (c : Dev nD) :
    W8 m ρ c (Proc.devRef .tc main_v36)
      = pad S3301376 ![0] ![1376] ![0] (Cert.ReferenceIdeal.Read.val_main_v26 (F := Ideal) (m ((c : Thread nD τ).loc main_arg1)))
          (sitofp (F := Ideal) .f32 (constantI S_ 32 0#32)) pads_S3300000_S3301376_013760 h_S_ := by
  dsimp only [W8, W7, W6, W5, W4, W3, hostOps1, hostOps1_1, hostOps1_2, hostOps1_3, hostOps1_4, hostOps1_5]
  after_results_simp
  rw [exit0_norm]
  generalize Cert.ReferenceIdeal.Read.val_main_v26 (F := Ideal) (m ((c : Thread nD τ).loc main_arg1)) = y
  -- every transport here is along an equation between a type and itself: strip them one at a time, outermost first,
  -- then the padded vector's two operands
  refine (eq_of_heq (cast_heq _ _)).trans ?_
  refine congrArg₂ (fun (x : FVec Ideal S3300000 .f32) (v : FVec Ideal S_ .f32) =>
    pad S3301376 ![0] ![1376] ![0] x v pads_S3300000_S3301376_013760 h_S_) ?_ ?_
  · exact eq_of_heq (cast_heq _ _)
  · exact (eq_of_heq (cast_heq _ _)).trans ((eq_of_heq (cast_heq _ _)).trans
      (congrArg (sitofp (F := Ideal) .f32) (eq_of_heq (cast_heq _ _))))

/-- The last stretch views that vector as a column. -/
theorem stage_column (c : Dev nD) :
    V9 m ρ c main_v38 = shapeCast S3301376x1 (W8 m ρ c (Proc.devRef .tc main_v36)) shapeCasts_S3301376_S3301376x1 := by
  dsimp only [V9, W9, hostOps1_6]
  after_results_simp
  rfl

/-- Its second operand: the weights, then zeros, as a column. -/
theorem entry1_weights (c : Dev nD) :
    V9 m ρ c main_v38 = Term.paddedWeights (m ((c : Thread nD τ).loc main_arg1)) :=
  (stage_column m ρ c).trans
    (congrArg (fun a => shapeCast S3301376x1 a shapeCasts_S3301376_S3301376x1) (stage_weights m ρ c))

/-- The destination words, then zero words. -/
theorem entry1_dst (c : Dev nD) :
    W9 m ρ c (Proc.devRef .tc main_v37) = Term.paddedDst (m ((c : Thread nD τ).loc main_arg1)) := by
  show _ = pad S3301376 ![0] ![1376] ![0] (Cert.ReferenceIdeal.Read.val_main_v6 (F := Ideal) (m ((c : Thread nD τ).loc main_arg1)))
    (id (constantI S_ 32 0#32)) pads_S3300000_S3301376_013760 h_S_
  dsimp only [W9, W8, W7, W6, W5, W4, W3, hostOps1, hostOps1_1, hostOps1_2, hostOps1_3, hostOps1_4, hostOps1_5, hostOps1_6]
  after_results_simp
  rw [exit0_dst]
  generalize Cert.ReferenceIdeal.Read.val_main_v6 (F := Ideal) (m ((c : Thread nD τ).loc main_arg1)) = d
  rfl

/-! ## Leaving the second grid computation -/

/-- Its result array holds every padded row scaled by its weight. -/
theorem exit1_scaled (c : Dev nD) :
    W10 m ρ c (Proc.devRef .tc main_v39)
      = Cert.Spec.scaleRows
          (Term.paddedRows (Cert.Spec.rowsByCols (m ((c : Thread nD τ).loc main_arg0)) (m ((c : Thread nD τ).loc main_arg2)))
            (m ((c : Thread nD τ).loc main_arg1)))
          (Term.paddedWeights (m ((c : Thread nD τ).loc main_arg1))) :=
  (W10_arr m ρ c 2).trans ((ScaleRegion.final (V9 m ρ) c).trans
    (congrArg₂ Cert.Spec.scaleRows (entry1_rows m ρ c) (entry1_weights m ρ c)))

theorem exit1_dst (c : Dev nD) :
    W10 m ρ c (Proc.devRef .tc main_v37) = Term.paddedDst (m ((c : Thread nD τ).loc main_arg1)) :=
  (W10_of_ne m ρ c main_v37 (by decide)).trans (entry1_dst m ρ c)

set_option maxHeartbeats 4000000 in
/-- The bias is as launched: the last stretch does not write it, and at the last boundary it is. -/
theorem exit1_bias (c : Dev nD) : W10 m ρ c (Proc.devRef .tc main_arg3) = m ((c : Thread nD τ).loc main_arg3) := by
  refine Eq.trans ?_ (W11_main_arg3 m ρ c)
  dsimp only [W11, hostOps2]
  after_results_simp

set_option maxHeartbeats 4000000 in
/-- The index array is as launched. -/
theorem exit1_index (c : Dev nD) : W10 m ρ c (Proc.devRef .tc main_arg4) = m ((c : Thread nD τ).loc main_arg4) := by
  refine Eq.trans ?_ (W11_main_arg4 m ρ c)
  dsimp only [W11, hostOps2]
  after_results_simp

/-! ## The result -/

set_option maxHeartbeats 4000000 in
/-- At the last boundary the result buffer holds the kernel's term of the five arguments. -/
theorem result (c : Dev nD) :
    W11 m ρ c (Proc.devRef .tc main_v52)
      = Term.result (m ((c : Thread nD τ).loc main_arg0)) (m ((c : Thread nD τ).loc main_arg1)) (m ((c : Thread nD τ).loc main_arg2))
          (m ((c : Thread nD τ).loc main_arg3)) (m ((c : Thread nD τ).loc main_arg4)) := by
  dsimp only [W11, hostOps2]
  after_results_simp
  rw [exit1_scaled, exit1_dst, exit1_bias, exit1_index]
  rfl

end Cert.KernelIdeal.HostChain

end
-- ==== Proof.LibRowOps.lean ====
/-
  Rows of a matrix read at an index: the keepdims column and the reductions over the columns.

  A vector [a] viewed as a column [a, 1] keeps its entries; a column [a, 1] broadcast to [a, b] repeats entry `p` along row
  `p`. A sum or a maximum over the second axis of an [a, b] matrix, read at row `i`, is the sum or the fold of `max` over the
  entries `(i, l)` of that row: for a kernel's reduction from its accumulator's value, and for the host's maximum from its
  initial value. The reductions are at the ideal values.
-/
import Idealize.ShloMosaic.PureOps.Ideal.Laws
import Idealize.ShloMosaic.Lib.ValueIdx
import Idealize.ShloMosaic.Lib.Pipeline.Value

noncomputable section

namespace Idealize.ShloMosaic.RowOps

open Idealize.ShloMosaic Idealize.ShloMosaic.ValueIdx

variable {α : Type}

/-! ## The keepdims column -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reductions over the columns, at the ideal values -/

/-- The index over row `i` with `l` put on the dropped second axis is `(i, l)`. -/
theorem lift_row {a b : ℕ} (h : (⟨2, ![a, b]⟩ : Shape).Reduces [1] ⟨1, ![a]⟩) (i : Fin a) (l : Fin b) :
    h.lift (ix1 i) l = ix2 i l := by
  funext ax; apply Fin.ext
  match ax with
  | ⟨0, _⟩ => rfl
  | ⟨1, _⟩ => rfl

/-- A kernel's sum over the columns, read at row `i`, is the sum of the row's entries. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ l : Fin b, src (ix2 i l) := by
  refine (Ideal.multiReduction_add_single src acc h hφ hacc (ix1 i)).trans ?_
  show ∑ l : Fin b, src (h.lift (ix1 i) l) = _
  exact Finset.sum_congr rfl fun l _ => congrArg src (lift_row h i l)

/-- A kernel's maximum over the columns, read at row `i`, is the fold of `max`, from the accumulator's value, over the
    row's entries. -/
theorem multiReduction_maximumf_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun l => src (ix2 i l)) := by
  refine (Ideal.multiReduction_maximumf_single src acc h hφ hacc (ix1 i)).trans ?_
  show (Finset.univ : Finset (Fin b)).fold max (Ideal.ofBits φ acc) (fun l => src (h.lift (ix1 i) l)) = _
  exact congrArg (fun f : Fin b → EReal => (Finset.univ : Finset (Fin b)).fold max (Ideal.ofBits φ acc) f)
    (funext fun l => congrArg src (lift_row h i l))

/-- The host's maximum over the columns, read at row `i`, is the fold of `max`, from the initial value, over the row's
    entries. -/
theorem hostReduce_maximumf_row {a b : ℕ} {φ : FTy} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (i : Fin a) :
    Host.reduce (FloatOps.maximumf (F := Ideal) (φ := φ)) x init h' hu (ix1 i)
      = (Finset.univ : Finset (Fin b)).fold max (init (Shape.Idx.first hu)) (fun l => x (ix2 i l)) := by
  refine (Host.reduce_eq_fold_single (FloatOps.maximumf (F := Ideal) (φ := φ)) x init h' h hu (ix1 i)).trans ?_
  show (Finset.univ : Finset (Fin b)).fold max (init (Shape.Idx.first hu)) (fun l => x (h.lift (ix1 i) l)) = _
  exact congrArg (fun f : Fin b → EReal => (Finset.univ : Finset (Fin b)).fold max (init (Shape.Idx.first hu)) f)
    (funext fun l => congrArg x (lift_row h i l))

end Idealize.ShloMosaic.RowOps

end
-- ==== Proof.LibPadReads.lean ====
/-
  Reads of padded arrays, of columns, and a sum whose tail vanishes.

  A vector [n] or a matrix [n, b] followed by k entries (rows) of a padding value reads, below n, as the original and,
  from n on, as the padding value.  A vector laid down a column [n, 1] and a column repeated along b columns read their
  entry p at row p.  The integer zero converted to a float is the real zero at the ideal values.  A sum over a + b
  positions whose last b terms are zero is the sum over the first a.
-/
import Idealize.ShloMosaic.PureOps.Ideal.Laws
import Idealize.ShloMosaic.Lib.KernelVsHost
import Idealize.ShloMosaic.Lib.Pipeline.Value
import Idealize.ShloMosaic.Lib.ValueIdx
import Mathlib.Algebra.BigOperators.Fin

noncomputable section

open scoped BigOperators

namespace Idealize.ShloMosaic.PadReads

open Idealize.ShloMosaic Idealize.ShloMosaic.ValueIdx

variable {α : Type}

/-- The padding value: the integer zero converted is the real zero. -/
theorem pad_value (i : (⟨0, ![]⟩ : Shape).Idx) : sitofp (F := Ideal) .f32 (constantI ⟨0, ![]⟩ 32 0#32) i = 0 := by
  show (((0#32 : BitVec 32).toInt : ℝ) : EReal) = 0
  simp

/-- A vector [n] laid down a column [n, 1], read at (p, u): the vector's entry p. -/
theorem col_apply {n : ℕ} (hn : n ≠ 1) (h : (⟨1, ![n]⟩ : Shape).BroadcastsInDim ⟨2, ![n, 1]⟩ ![0])
    (y : (⟨1, ![n]⟩ : Shape).Idx → α) (p : Fin n) (u : Fin 1) :
    broadcastInDim ⟨2, ![n, 1]⟩ ![0] h y (ix2 p u) = y (ix1 p) :=
  broadcastInDim_apply ![0] h y (ix2 p u) (ix1 p) fun a => by
    match a with
    | ⟨0, _⟩ => show p.val = if n = 1 then 0 else p.val; rw [if_neg hn]

/-- A column [n, 1] repeated along b columns, read at (p, e): the column's entry p. -/
theorem cols_apply {n b : ℕ} (hn : n ≠ 1) (h : (⟨2, ![n, 1]⟩ : Shape).BroadcastsInDim ⟨2, ![n, b]⟩ ![0, 1])
    (y : (⟨2, ![n, 1]⟩ : Shape).Idx → α) (p : Fin n) (e : Fin b) :
    broadcastInDim ⟨2, ![n, b]⟩ ![0, 1] h y (ix2 p e) = y (ix2 p (0 : Fin 1)) :=
  broadcastInDim_apply ![0, 1] h y (ix2 p e) (ix2 p (0 : Fin 1)) fun a => by
    match a with
    | ⟨0, _⟩ => show p.val = if n = 1 then 0 else p.val; rw [if_neg hn]
    | ⟨1, _⟩ => show 0 = if (1 : ℕ) = 1 then 0 else e.val; rw [if_pos rfl]

/-- A vector [n] followed by k entries of padding, read below n: the vector. -/
theorem padv_head {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (p : Fin n) (hq : q.val = p.val) :
    pad ⟨1, ![N]⟩ ![0] ![k] ![0] x v h hu (ix1 q) = x (ix1 p) :=
  pad_apply_of_inside ![0] ![k] ![0] x v h hu (ix1 q) (ix1 p) fun a => by
    match a with
    | ⟨0, _⟩ => show q.val = 0 + p.val * (0 + 1); omega

/-- … read from n on: the padding value. -/
theorem padv_tail {n k N : ℕ} {u : Shape} (h : (⟨1, ![n]⟩ : Shape).Pads ![0] ![k] ![0] ⟨1, ![N]⟩) (hu : 0 < u.numel)
    (x : (⟨1, ![n]⟩ : Shape).Idx → α) (v : u.Idx → α) (q : Fin N) (hq : n ≤ q.val) :
    pad ⟨1, ![N]⟩ ![0] ![k] ![0] x v h hu (ix1 q) = v (Shape.Idx.first hu) :=
  pad_apply_of_not_inside ![0] ![k] ![0] x v h hu (ix1 q) 0 fun hin => by
    have h3 : (q.val - 0) / (0 + 1) < n := hin.2.2
    omega

/-- A matrix [n, b] followed by k rows of padding, read at a row below n: the matrix. -/
theorem padm_head {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (p : Fin n) (hq : q.val = p.val) (e : Fin b) :
    pad ⟨2, ![N, b]⟩ ![0, 0] ![k, 0] ![0, 0] x v h hu (ix2 q e) = x (ix2 p e) :=
  pad_apply_of_inside ![0, 0] ![k, 0] ![0, 0] x v h hu (ix2 q e) (ix2 p e) fun a => by
    match a with
    | ⟨0, _⟩ => show q.val = 0 + p.val * (0 + 1); omega
    | ⟨1, _⟩ => show e.val = 0 + e.val * (0 + 1); omega

/-- … read at a row from n on: the padding value. -/
theorem padm_tail {n b k N : ℕ} {u : Shape} (h : (⟨2, ![n, b]⟩ : Shape).Pads ![0, 0] ![k, 0] ![0, 0] ⟨2, ![N, b]⟩) (hu : 0 < u.numel)
    (x : (⟨2, ![n, b]⟩ : Shape).Idx → α) (v : u.Idx → α) (q : Fin N) (hq : n ≤ q.val) (e : Fin b) :
    pad ⟨2, ![N, b]⟩ ![0, 0] ![k, 0] ![0, 0] x v h hu (ix2 q e) = v (Shape.Idx.first hu) :=
  pad_apply_of_not_inside ![0, 0] ![k, 0] ![0, 0] x v h hu (ix2 q e) 0 fun hin => by
    have h3 : (q.val - 0) / (0 + 1) < n := hin.2.2
    omega

/-- A sum over a + b positions whose last b terms vanish is the sum over the first a. -/
theorem sum_drop_tail {M : Type*} [AddCommMonoid M] {a b : ℕ} (f : Fin (a + b) → M) (hz : ∀ p : Fin b, f (Fin.natAdd a p) = 0) :
    ∑ q, f q = ∑ p : Fin a, f (Fin.castAdd b p) := by
  rw [Fin.sum_univ_add, Finset.sum_eq_zero (fun p _ => hz p), add_zero]

end Idealize.ShloMosaic.PadReads

end
-- ==== Proof.PadReads.lean ====
/-
  The kernel's three padded arrays, read at a row.

  The gathered rows followed by 1376 rows of the padding value, the per-edge weights followed by 1376 entries of it (as
  a column), and the destination words followed by 1376 zero words (as a column): below row 3300000 each reads as the
  original, from there on the first two read zero — the padding value is the integer zero converted.
-/
import proofs.«175360_j16801912062662_1_alg».proof.Proof.Gen.KernelIdeal
import proofs.«175360_j16801912062662_1_alg».proof.Proof.Gen.ReferenceIdeal
import proofs.«175360_j16801912062662_1_alg».proof.Proof.Spec
import proofs.«175360_j16801912062662_1_alg».proof.Proof.LibRowOps
import proofs.«175360_j16801912062662_1_alg».proof.Proof.LibPadReads

noncomputable section

open scoped BigOperators

namespace Cert.ScatterPad

open Cert.KernelIdeal Cert.KernelIdeal.Gen Idealize.ShloMosaic Idealize.ShloMosaic.ValueIdx Idealize.ShloMosaic.PadReads

/-! ## The kernel's three padded arrays -/

/-- The rows X followed by 1376 rows of the padding value. -/
def padRows (X : FVec Ideal S3300000x64 .f32) : FVec Ideal S3301376x64 .f32 :=
  pad S3301376x64 ![0, 0] ![1376, 0] ![0, 0] X (sitofp (F := Ideal) .f32 (constantI S_ 32 0#32))
    pads_S3300000x64_S3301376x64_013760_000 h_S_

/-- The weights followed by 1376 entries of the padding value, as a column. -/
def padCol (nrm : FVec Ideal S3300000 .f32) : FVec Ideal S3301376x1 .f32 :=
  shapeCast S3301376x1
    (pad S3301376 ![0] ![1376] ![0] nrm (sitofp (F := Ideal) .f32 (constantI S_ 32 0#32)) pads_S3300000_S3301376_013760 h_S_)
    shapeCasts_S3301376_S3301376x1

/-- The destination words followed by 1376 zero words, as a column. -/
def padIdx (dst : IVec S3300000 32) : IVec S3301376x1 32 :=
  broadcastInDim S3301376x1 ![0] bcast_S3301376_S3301376x1_0
    (pad S3301376 ![0] ![1376] ![0] dst (id (constantI S_ 32 0#32)) pads_S3300000_S3301376_013760 h_S_)

theorem padRows_head (X : FVec Ideal S3300000x64 .f32) (q : Fin 3301376) (p : Fin 3300000) (hq : q.val = p.val) (e : Fin 64) :
    padRows X (ix2 q e) = X (ix2 p e) :=
  padm_head pads_S3300000x64_S3301376x64_013760_000 h_S_ X _ q p hq e

theorem padRows_tail (X : FVec Ideal S3300000x64 .f32) (q : Fin 3301376) (hq : 3300000 ≤ q.val) (e : Fin 64) :
    padRows X (ix2 q e) = 0 :=
  (padm_tail pads_S3300000x64_S3301376x64_013760_000 h_S_ X _ q hq e).trans (pad_value _)

theorem padCol_head (nrm : FVec Ideal S3300000 .f32) (q : Fin 3301376) (p : Fin 3300000) (hq : q.val = p.val) :
    padCol nrm (ix2 q (0 : Fin 1)) = nrm (ix1 p) :=
  (RowOps.shapeCast_a_a1_apply _ shapeCasts_S3301376_S3301376x1 q 0).trans
    (padv_head pads_S3300000_S3301376_013760 h_S_ nrm _ q p hq)

theorem padCol_tail (nrm : FVec Ideal S3300000 .f32) (q : Fin 3301376) (hq : 3300000 ≤ q.val) :
    padCol nrm (ix2 q (0 : Fin 1)) = 0 :=
  (RowOps.shapeCast_a_a1_apply _ shapeCasts_S3301376_S3301376x1 q 0).trans
    ((padv_tail pads_S3300000_S3301376_013760 h_S_ nrm _ q hq).trans (pad_value _))

theorem padIdx_head (dst : IVec S3300000 32) (q : Fin 3301376) (p : Fin 3300000) (hq : q.val = p.val) :
    padIdx dst (ix2 q (0 : Fin 1)) = dst (ix1 p) :=
  (col_apply (by decide) bcast_S3301376_S3301376x1_0 _ q 0).trans
    (padv_head pads_S3300000_S3301376_013760 h_S_ dst _ q p hq)

end Cert.ScatterPad

end
-- ==== Proof.LibScatterAddRows.lean ====
/-
  A row-wise accumulating scatter read at an entry, at the ideal values.

  The host's accumulating scatter of an [N, D] array of update rows into a [C, D] operand by an [N, 1] column of row
  indices (the update's second axis the window, the operand's first axis inserted and scattered to, the index vector
  on the indices' second axis) sends update row n whole to operand row idx(n), the index word read as a signed integer and
  not clamped; a row whose index is below 0 or not below C is dropped. So entry (k, e) of the result is the operand's
  entry plus the sum over the rows n of: update entry (n, e) when idx(n) is k, zero otherwise. The scatter of an [N]
  vector of updates into a [C] operand by the same column of indices reads the same way at entry k.

  The road: an update index lands at a given operand index exactly when, on every operand axis, the window's start plus
  the window coordinate is that index's coordinate (`resultIdx?_eq_some_iff`, for any dimension numbers). For these
  dimension numbers the start is the index word on the scattered axis and zero on the window axis, and the window
  coordinate is zero on the inserted axis and the update's column on the window axis; so update (n, e') lands at (k, e)
  exactly when idx(n) reads k and e' is e. The filtered sum over the update indices is then the double sum over rows and
  columns of an `if`, and the inner sum over the columns has one term.
-/
import Idealize.ShloMosaic.PureOps.Ideal.Laws
import Idealize.ShloMosaic.Lib.ValueIdx

noncomputable section

open scoped BigOperators

namespace Idealize.ShloMosaic.ScatterAddRows

open Idealize.ShloMosaic Idealize.ShloMosaic.ValueIdx

/-- An update index lands at i exactly when, on every operand axis, the window's start plus the window coordinate is
    i's coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have h' := Option.some.inj h
      intro a
      have h1 := congrArg (fun f => (f a).val) h'
      simp only at h1
      have h2 := hc a
      omega
    · exact absurd h (by simp)
  · intro h
    have hc : ∀ a, 0 ≤ d.start j idx a + d.window j a ∧ d.start j idx a + d.window j a < s.size a := by
      intro a
      have h1 := h a
      have h2 := (i a).isLt
      omega
    rw [dif_pos hc]
    congr 1
    funext a
    apply Fin.ext
    have h1 := h a
    simp only
    omega

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

section Rows
variable {C D N : ℕ} (wf : ScatterDims.WF ⟨2, ![C, D]⟩ ⟨2, ![N, 1]⟩ ⟨2, ![N, D]⟩ [1] [0] [0] 1)

/-- The index word an update row reads: the column of indices at (row, 0). -/
private theorem rows_siIdx (j : (⟨2, ![N, D]⟩ : Shape).Idx) (c) :
    (⟨[1], [0], [0], 1, wf⟩ : ScatterDims ⟨2, ![C, D]⟩ ⟨2, ![N, 1]⟩ ⟨2, ![N, D]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the scattered axis the window starts at the row's index word, read signed. -/
private theorem rows_start0 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 0
      = (idx (ix2 (j 0) (0 : Fin 1))).toInt := by
  unfold ScatterDims.start
  rw [dif_pos (List.mem_cons_self ..), rows_siIdx]
  rfl

/-- On the window axis the window starts at zero. -/
private theorem rows_start1 {w : ℕ} (j : (⟨2, ![N, D]⟩ : Shape).Idx) (idx : IVec ⟨2, ![N, 1]⟩ w) :
    (⟨[1], [0], [0], 1, wf⟩ : ScatterDims ⟨2, ![C, D]⟩ ⟨2, ![N, 1]⟩ ⟨2, ![N, D]⟩).start j idx 1 = 0 := by
  unfold ScatterDims.start
  rw [dif_neg (by simp)]

/-- The inserted axis has window coordinate zero. -/
private theorem rows_window0 (j : (⟨2, ![N, D]⟩ : Shape).Idx) :
    (⟨[1], [0], [0], 1, wf⟩ : ScatterDims ⟨2, ![C, D]⟩ ⟨2, ![N, 1]⟩ ⟨2, ![N, D]⟩).window j 0 = 0 := by
  rfl

/-- The window axis has the update's column as window coordinate. -/
private theorem rows_window1 (j : (⟨2, ![N, D]⟩ : Shape).Idx) :
    (⟨[1], [0], [0], 1, wf⟩ : ScatterDims ⟨2, ![C, D]⟩ ⟨2, ![N, 1]⟩ ⟨2, ![N, D]⟩).window j 1 = (j 1).val := by
  rfl

/-- Update index j lands at (k, e) exactly when its row's index word reads k and its column is e. -/
theorem rows_resultIdx?_iff {w : ℕ} (j : (⟨2, ![N, D]⟩ : Shape).Idx) (idx : IVec ⟨2, ![N, 1]⟩ w) (k : Fin C) (e : Fin D) :
    (⟨[1], [0], [0], 1, wf⟩ : ScatterDims ⟨2, ![C, D]⟩ ⟨2, ![N, 1]⟩ ⟨2, ![N, D]⟩).resultIdx? j idx = some (ix2 k e)
      ↔ (idx (ix2 (j 0) (0 : Fin 1))).toInt = (k.val : ℤ) ∧ j 1 = e := by
  rw [resultIdx?_eq_some_iff, Fin.forall_fin_two, rows_start0, rows_start1, rows_window0, rows_window1]
  constructor
  · rintro ⟨h0, h1⟩
    refine ⟨?_, Fin.ext ?_⟩
    · simpa using h0
    · have : ((j 1).val : ℤ) = (e.val : ℤ) := by simpa using h1
      exact_mod_cast this
  · rintro ⟨h0, h1⟩
    refine ⟨?_, ?_⟩
    · simpa using h0
    · subst h1; simp

end Rows

section Vec
variable {C N : ℕ} (wf : ScatterDims.WF ⟨1, ![C]⟩ ⟨2, ![N, 1]⟩ ⟨1, ![N]⟩ [] [0] [0] 1)

/-- The index word an update reads: the column of indices at (its position, 0). -/
private theorem vec_siIdx (j : (⟨1, ![N]⟩ : Shape).Idx) (c) :
    (⟨[], [0], [0], 1, wf⟩ : ScatterDims ⟨1, ![C]⟩ ⟨2, ![N, 1]⟩ ⟨1, ![N]⟩).siIdx j c = ix2 (j 0) (0 : Fin 1) := by
  funext b
  match b with
  | ⟨0, _⟩ => exact Fin.ext rfl
  | ⟨1, _⟩ =>
    apply Fin.ext
    have hc : c.val < 1 := c.isLt
    show c.val = 0
    omega

/-- On the operand's one axis the window starts at the update's index word, read signed. -/
private theorem vec_start0 {w : ℕ} (j : (⟨1, ![N]⟩ : Shape).Idx) (idx : IVec ⟨2, ![N, 1]⟩ w) :
    (⟨[], [0], [0], 1, wf⟩ : ScatterDims ⟨1, ![C]⟩ ⟨2, ![N, 1]⟩ ⟨1, ![N]⟩).start j idx 0
      = (idx (ix2 (j 0) (0 : Fin 1))).toInt := by
  unfold ScatterDims.start
  rw [dif_pos (List.mem_cons_self ..), vec_siIdx]
  rfl

/-- The operand's one axis is inserted: its window coordinate is zero. -/
private theorem vec_window0 (j : (⟨1, ![N]⟩ : Shape).Idx) :
    (⟨[], [0], [0], 1, wf⟩ : ScatterDims ⟨1, ![C]⟩ ⟨2, ![N, 1]⟩ ⟨1, ![N]⟩).window j 0 = 0 := by
  rfl

/-- Update index j lands at k exactly when its index word reads k. -/
theorem vec_resultIdx?_iff {w : ℕ} (j : (⟨1, ![N]⟩ : Shape).Idx) (idx : IVec ⟨2, ![N, 1]⟩ w) (k : Fin C) :
    (⟨[], [0], [0], 1, wf⟩ : ScatterDims ⟨1, ![C]⟩ ⟨2, ![N, 1]⟩ ⟨1, ![N]⟩).resultIdx? j idx = some (ix1 k)
      ↔ (idx (ix2 (j 0) (0 : Fin 1))).toInt = (k.val : ℤ) := by
  rw [resultIdx?_eq_some_iff, Fin.forall_fin_one, vec_start0, vec_window0]
  constructor
  · intro h0
    simpa using h0
  · intro h0
    simpa using h0

end Vec

/-- Rows of width D accumulated into a [C, D] operand by an [N, 1] column of row indices, read at (k, e). -/
theorem scatterAdd_rows_apply {C D N w : ℕ}
    (wf : ScatterDims.WF ⟨2, ![C, D]⟩ ⟨2, ![N, 1]⟩ ⟨2, ![N, D]⟩ [1] [0] [0] 1)
    (x : (⟨2, ![C, D]⟩ : Shape).Idx → EReal) (idx : IVec ⟨2, ![N, 1]⟩ w) (upd : (⟨2, ![N, D]⟩ : Shape).Idx → EReal)
    (k : Fin C) (e : Fin D) :
    Ideal.hostScatterAdd (⟨[1], [0], [0], 1, wf⟩ : ScatterDims ⟨2, ![C, D]⟩ ⟨2, ![N, 1]⟩ ⟨2, ![N, D]⟩) x idx upd (ix2 k e)
      = x (ix2 k e) + ∑ n : Fin N, if (idx (ix2 n (0 : Fin 1))).toInt = (k.val : ℤ) then upd (ix2 n e) else 0 := by
  unfold Ideal.hostScatterAdd
  congr 1
  rw [Finset.sum_filter, sum_idx2]
  refine Finset.sum_congr rfl fun n _ => ?_
  have hiff : ∀ b : Fin D,
      ((⟨[1], [0], [0], 1, wf⟩ : ScatterDims ⟨2, ![C, D]⟩ ⟨2, ![N, 1]⟩ ⟨2, ![N, D]⟩).resultIdx? (ix2 n b) idx = some (ix2 k e))
        ↔ ((idx (ix2 n (0 : Fin 1))).toInt = (k.val : ℤ) ∧ b = e) := fun b => rows_resultIdx?_iff wf (ix2 n b) idx k e
  simp only [hiff]
  by_cases hc : (idx (ix2 n (0 : Fin 1))).toInt = (k.val : ℤ)
  · simp [hc]
  · simp [hc]

/-- Scalars accumulated into a [C] operand by an [N, 1] column of indices, read at k. -/
theorem scatterAdd_vec_apply {C N w : ℕ}
    (wf : ScatterDims.WF ⟨1, ![C]⟩ ⟨2, ![N, 1]⟩ ⟨1, ![N]⟩ [] [0] [0] 1)
    (x : (⟨1, ![C]⟩ : Shape).Idx → EReal) (idx : IVec ⟨2, ![N, 1]⟩ w) (upd : (⟨1, ![N]⟩ : Shape).Idx → EReal)
    (k : Fin C) :
    Ideal.hostScatterAdd (⟨[], [0], [0], 1, wf⟩ : ScatterDims ⟨1, ![C]⟩ ⟨2, ![N, 1]⟩ ⟨1, ![N]⟩) x idx upd (ix1 k)
      = x (ix1 k) + ∑ n : Fin N, if (idx (ix2 n (0 : Fin 1))).toInt = (k.val : ℤ) then upd (ix1 n) else 0 := by
  unfold Ideal.hostScatterAdd
  congr 1
  rw [Finset.sum_filter, sum_idx1]
  refine Finset.sum_congr rfl fun n _ => ?_
  exact if_congr (vec_resultIdx?_iff wf (ix1 n) idx k) rfl rfl

end Idealize.ShloMosaic.ScatterAddRows

end
-- ==== Proof.LibScatterDropTail.lean ====
/-
  An accumulating scatter of rows whose last k rows are zero.

  Rows of width D accumulated into a [C, D] operand by a column of n + k row indices, when the last k update rows are
  zero, give the same matrix as the first n rows accumulated by the first n indices: entry (r, e) of either is the
  operand's entry plus the sum over the rows whose index word reads r, and a zero row adds nothing wherever it is sent.
  Stated for any sizes, so that the sum is never taken over a concrete index set; a certificate puts its sizes in at the
  end (n + k against the padded extent by arithmetic on literals).
-/
import proofs.«175360_j16801912062662_1_alg».proof.Proof.LibScatterAddRows
import proofs.«175360_j16801912062662_1_alg».proof.Proof.LibPadReads

noncomputable section

open scoped BigOperators

namespace Idealize.ShloMosaic.ScatterDropTail

open Idealize.ShloMosaic Idealize.ShloMosaic.ValueIdx Idealize.ShloMosaic.PadReads

/-- Rows accumulated by a column of n + k row indices, the last k rows zero, against the first n rows accumulated by the
    first n indices: the same matrix. -/
theorem scatter_drop_tail {C D n k w : ℕ}
    (wfK : ScatterDims.WF ⟨2, ![C, D]⟩ ⟨2, ![n + k, 1]⟩ ⟨2, ![n + k, D]⟩ [1] [0] [0] 1)
    (wfR : ScatterDims.WF ⟨2, ![C, D]⟩ ⟨2, ![n, 1]⟩ ⟨2, ![n, D]⟩ [1] [0] [0] 1)
    (z : (⟨2, ![C, D]⟩ : Shape).Idx → EReal)
    (idxK : IVec ⟨2, ![n + k, 1]⟩ w) (idxR : IVec ⟨2, ![n, 1]⟩ w)
    (updK : (⟨2, ![n + k, D]⟩ : Shape).Idx → EReal) (updR : (⟨2, ![n, D]⟩ : Shape).Idx → EReal)
    (hidx : ∀ p : Fin n, idxK (ix2 (Fin.castAdd k p) (0 : Fin 1)) = idxR (ix2 p (0 : Fin 1)))
    (hupd : ∀ (p : Fin n) (e : Fin D), updK (ix2 (Fin.castAdd k p) e) = updR (ix2 p e))
    (htail : ∀ (p : Fin k) (e : Fin D), updK (ix2 (Fin.natAdd n p) e) = 0) :
    Host.scatterAdd (F := Ideal) (φ := .f32) (⟨[1], [0], [0], 1, wfK⟩ : ScatterDims ⟨2, ![C, D]⟩ ⟨2, ![n + k, 1]⟩ ⟨2, ![n + k, D]⟩) z idxK updK
      = Host.scatterAdd (F := Ideal) (φ := .f32) (⟨[1], [0], [0], 1, wfR⟩ : ScatterDims ⟨2, ![C, D]⟩ ⟨2, ![n, 1]⟩ ⟨2, ![n, D]⟩) z idxR updR := by
  show Ideal.hostScatterAdd (⟨[1], [0], [0], 1, wfK⟩ : ScatterDims ⟨2, ![C, D]⟩ ⟨2, ![n + k, 1]⟩ ⟨2, ![n + k, D]⟩) z idxK updK
      = Ideal.hostScatterAdd (⟨[1], [0], [0], 1, wfR⟩ : ScatterDims ⟨2, ![C, D]⟩ ⟨2, ![n, 1]⟩ ⟨2, ![n, D]⟩) z idxR updR
  funext i
  obtain ⟨r, e, rfl⟩ : ∃ (r : Fin C) (e : Fin D), i = ix2 r e := ⟨i 0, i 1, eq_ix2 i⟩
  rw [ScatterAddRows.scatterAdd_rows_apply, ScatterAddRows.scatterAdd_rows_apply]
  refine congrArg (z (ix2 r e) + ·) ?_
  refine (sum_drop_tail (a := n) (b := k) _ fun p => ?_).trans (Finset.sum_congr rfl fun p _ => ?_)
  · -- an appended row adds zero wherever it is sent
    rw [htail p e]
    exact ite_self _
  · -- one of the first n rows: the same destination and the same row
    rw [hidx p, hupd p e]

end Idealize.ShloMosaic.ScatterDropTail

end
-- ==== Proof.ScatterPad.lean ====
/-
  Padding with zero rows does not change an accumulating scatter.

  The kernel's program appends 1376 rows of zeros to the 3300000 gathered rows X and 1376 zeros to the weights, scales
  row n by weight n, and accumulates row n into row dst(n) of a zero matrix, the destinations extended by 1376 zero
  words.  The reference scales and accumulates the 3300000 rows themselves.  Entry (r, e) of either result is the sum,
  over the rows p whose destination word reads r, of X(p, e)·weight(p).  For p below 3300000 the two programs have
  the same row, weight and destination; each of the 1376 appended rows is 0·0 = 0, so whichever row it is sent to it
  adds nothing.  The statement about the sums is proved for any sizes; the kernel's sizes are put in at the end.
-/
import proofs.«175360_j16801912062662_1_alg».proof.Proof.PadReads
import proofs.«175360_j16801912062662_1_alg».proof.Proof.LibScatterDropTail

noncomputable section

open scoped BigOperators

namespace Cert.ScatterPad

open Cert.KernelIdeal Cert.KernelIdeal.Gen Idealize.ShloMosaic Idealize.ShloMosaic.ValueIdx Idealize.ShloMosaic.PadReads
  Idealize.ShloMosaic.ScatterDropTail

/-! ## At the kernel's sizes: the three facts about rows -/

/-- A row below 3300000 has the reference's destination word. -/
theorem dst_head (dst : IVec S3300000 32) (p : Fin 3300000) :
    padIdx dst (ix2 (Fin.castAdd 1376 p) (0 : Fin 1))
      = broadcastInDim Cert.ReferenceIdeal.S3300000x1 ![0] Cert.ReferenceIdeal.Gen.bcast_S3300000_S3300000x1_0 dst (ix2 p (0 : Fin 1)) :=
  (padIdx_head dst _ p rfl).trans (col_apply (by decide) Cert.ReferenceIdeal.Gen.bcast_S3300000_S3300000x1_0 dst p 0).symm

/-- A row below 3300000, scaled by the kernel, is the reference's scaled row. -/
theorem row_head (X : FVec Ideal S3300000x64 .f32) (nrm : FVec Ideal S3300000 .f32) (p : Fin 3300000) (e : Fin 64) :
    Cert.Spec.scaleRows (padRows X) (padCol nrm) (ix2 (Fin.castAdd 1376 p) e)
      = mulf X (broadcastInDim Cert.ReferenceIdeal.S3300000x64 ![0, 1] Cert.ReferenceIdeal.Gen.bcast_S3300000x1_S3300000x64_0_1
          (broadcastInDim Cert.ReferenceIdeal.S3300000x1 ![0] Cert.ReferenceIdeal.Gen.bcast_S3300000_S3300000x1_0 nrm)) (ix2 p e) := by
  show padRows X (ix2 (Fin.castAdd 1376 p) e) * padCol nrm (ix2 (Fin.castAdd 1376 p) (0 : Fin 1)) = X (ix2 p e) * _
  rw [padRows_head X _ p rfl e, padCol_head nrm _ p rfl,
    cols_apply (by decide) Cert.ReferenceIdeal.Gen.bcast_S3300000x1_S3300000x64_0_1 _ p e,
    col_apply (by decide) Cert.ReferenceIdeal.Gen.bcast_S3300000_S3300000x1_0 nrm p 0]

/-- An appended row, scaled, is zero: zero times zero. -/
theorem row_tail (X : FVec Ideal S3300000x64 .f32) (nrm : FVec Ideal S3300000 .f32) (p : Fin 1376) (e : Fin 64) :
    Cert.Spec.scaleRows (padRows X) (padCol nrm) (ix2 (Fin.natAdd 3300000 p) e) = 0 := by
  have hq : 3300000 ≤ (Fin.natAdd 3300000 p).val := Nat.le_add_right _ _
  show padRows X (ix2 (Fin.natAdd 3300000 p) e) * padCol nrm (ix2 (Fin.natAdd 3300000 p) (0 : Fin 1)) = 0
  rw [padRows_tail X _ hq e, padCol_tail nrm _ hq, zero_mul]

/-! ## The two accumulations agree -/

/-- The kernel's accumulation of the padded, scaled rows is the reference's accumulation of the scaled rows. -/
theorem scatter_padded (X : FVec Ideal S3300000x64 .f32) (nrm : FVec Ideal S3300000 .f32) (dst : IVec S3300000 32) :
    Host.scatterAdd (F := Ideal) scatter_S100000x64_S3301376x1_S3301376x64_1_0_0_1
        (broadcastInDim S100000x64 ![] bcast_S_S100000x64 (constant (F := Ideal) S_ .f32 0x00000000#32))
        (padIdx dst) (Cert.Spec.scaleRows (padRows X) (padCol nrm))
      = Host.scatterAdd (F := Ideal) Cert.ReferenceIdeal.scatter_S100000x64_S3300000x1_S3300000x64_1_0_0_1
        (broadcastInDim Cert.ReferenceIdeal.S100000x64 ![] Cert.ReferenceIdeal.Gen.bcast_S_S100000x64
          (constant (F := Ideal) Cert.ReferenceIdeal.S_ .f32 0x00000000#32))
        (broadcastInDim Cert.ReferenceIdeal.S3300000x1 ![0] Cert.ReferenceIdeal.Gen.bcast_S3300000_S3300000x1_0 dst)
        (mulf X (broadcastInDim Cert.ReferenceIdeal.S3300000x64 ![0, 1] Cert.ReferenceIdeal.Gen.bcast_S3300000x1_S3300000x64_0_1
          (broadcastInDim Cert.ReferenceIdeal.S3300000x1 ![0] Cert.ReferenceIdeal.Gen.bcast_S3300000_S3300000x1_0 nrm))) :=
  by
    have h := scatter_drop_tail (C := 100000) (D := 64) (n := 3300000) (k := 1376)
        scatter_S100000x64_S3301376x1_S3301376x64_1_0_0_1_wf
        Cert.ReferenceIdeal.Gen.scatter_S100000x64_S3300000x1_S3300000x64_1_0_0_1_wf
        (broadcastInDim S100000x64 ![] bcast_S_S100000x64 (constant (F := Ideal) S_ .f32 0x00000000#32))
        (padIdx dst)
        (broadcastInDim Cert.ReferenceIdeal.S3300000x1 ![0] Cert.ReferenceIdeal.Gen.bcast_S3300000_S3300000x1_0 dst)
        (Cert.Spec.scaleRows (padRows X) (padCol nrm))
        (mulf X (broadcastInDim Cert.ReferenceIdeal.S3300000x64 ![0, 1] Cert.ReferenceIdeal.Gen.bcast_S3300000x1_S3300000x64_0_1
          (broadcastInDim Cert.ReferenceIdeal.S3300000x1 ![0] Cert.ReferenceIdeal.Gen.bcast_S3300000_S3300000x1_0 nrm)))
        (dst_head dst) (row_head X nrm) (row_tail X nrm)
    -- the records and the zero matrix of the two programs, spelt the same way
    have e1 : scatter_S100000x64_S3301376x1_S3301376x64_1_0_0_1
        = (⟨[1], [0], [0], 1, scatter_S100000x64_S3301376x1_S3301376x64_1_0_0_1_wf⟩ : ScatterDims _ _ _) := rfl
    have e2 : Cert.ReferenceIdeal.scatter_S100000x64_S3300000x1_S3300000x64_1_0_0_1
        = (⟨[1], [0], [0], 1, Cert.ReferenceIdeal.Gen.scatter_S100000x64_S3300000x1_S3300000x64_1_0_0_1_wf⟩ : ScatterDims _ _ _) := rfl
    have e3 : broadcastInDim Cert.ReferenceIdeal.S100000x64 ![] Cert.ReferenceIdeal.Gen.bcast_S_S100000x64
          (constant (F := Ideal) Cert.ReferenceIdeal.S_ .f32 0x00000000#32)
        = broadcastInDim S100000x64 ![] bcast_S_S100000x64 (constant (F := Ideal) S_ .f32 0x00000000#32) := rfl
    rw [e1, e2, e3]
    exact h

end Cert.ScatterPad

end
-- ==== Proof.Bridge.lean ====
/-
  The kernel's term is the reference's.

  Three steps.  The kernel's product, entry (r, h) = Σ_l features(r, l)·W(l, h), is the reference's matrix product read
  at (r, h): at the ideal values a product is that sum, in whatever order it was taken.  With the products equal, the
  rows gathered by source node are equal, and accumulating them padded with zero rows is accumulating them unpadded
  (the appended rows are 0·0).  After the accumulation both programs add the bias and gather the requested rows with
  the same operations.
-/
import proofs.«175360_j16801912062662_1_alg».proof.Proof.KernelTerm
import proofs.«175360_j16801912062662_1_alg».proof.Proof.ScatterPad
import proofs.«175360_j16801912062662_1_alg».proof.Proof.Gen.ReferenceIdeal.Read

noncomputable section

open scoped BigOperators

namespace Cert.Bridge

open Idealize.ShloMosaic Idealize.ShloMosaic.ValueIdx

/-- The kernel's product of the feature and weight matrices is the reference's. -/
theorem product_eq (x0 : (⟨Cert.KernelIdeal.S100000x128, .f32⟩ : BufTy).Contents (Elt Ideal))
    (x2 : (⟨Cert.KernelIdeal.S128x64, .f32⟩ : BufTy).Contents (Elt Ideal)) :
    Cert.Spec.rowsByCols x0 x2 = Cert.ReferenceIdeal.Read.val_main_v27 (F := Ideal) x0 x2 := by
  funext i
  rw [Cert.ReferenceIdeal.Read.val_main_v27_apply]
  show ∑ l : Fin 128, x0 (ix2 (⟨(i 0).val, (i 0).isLt⟩ : Fin 100000) l) * x2 (ix2 l (⟨(i 1).val, (i 1).isLt⟩ : Fin 64)) = _
  refine Finset.sum_congr rfl fun l _ => ?_
  have el : ix2 (⟨(i 0).val, (i 0).isLt⟩ : Fin 100000) l = Cert.ReferenceIdeal.Read.lidx_main_v27 i l :=
    funext fun a => by match a with | ⟨0, _⟩ => rfl | ⟨1, _⟩ => rfl
  have er : ix2 l (⟨(i 1).val, (i 1).isLt⟩ : Fin 64) = Cert.ReferenceIdeal.Read.ridx_main_v27 i l :=
    funext fun a => by match a with | ⟨0, _⟩ => rfl | ⟨1, _⟩ => rfl
  rw [el, er]

/-- The kernel's accumulated rows are the reference's. -/
theorem aggregated_eq (x0 : (⟨Cert.KernelIdeal.S100000x128, .f32⟩ : BufTy).Contents (Elt Ideal))
    (x1 : (⟨Cert.KernelIdeal.S2x3200000, .i32⟩ : BufTy).Contents (Elt Ideal))
    (x2 : (⟨Cert.KernelIdeal.S128x64, .f32⟩ : BufTy).Contents (Elt Ideal)) :
    Cert.KernelIdeal.Term.aggregated (Cert.Spec.rowsByCols x0 x2) x1
      = Cert.ReferenceIdeal.Read.val_main_v40 (F := Ideal) x0 x1 x2 := by
  rw [product_eq]
  exact Cert.ScatterPad.scatter_padded
    (Host.gather Cert.KernelIdeal.gather_S100000x64_S3300000x1_S3300000x64_1_0_n_n_0_1_164
      (Cert.ReferenceIdeal.Read.val_main_v27 (F := Ideal) x0 x2) (Cert.ReferenceIdeal.Read.val_main_v33 (F := Ideal) x1))
    (Cert.ReferenceIdeal.Read.val_main_v26 (F := Ideal) x1) (Cert.ReferenceIdeal.Read.val_main_v6 (F := Ideal) x1)

/-- The kernel's result is the reference's. -/
theorem result_eq (x0 : (⟨Cert.KernelIdeal.S100000x128, .f32⟩ : BufTy).Contents (Elt Ideal))
    (x1 : (⟨Cert.KernelIdeal.S2x3200000, .i32⟩ : BufTy).Contents (Elt Ideal))
    (x2 : (⟨Cert.KernelIdeal.S128x64, .f32⟩ : BufTy).Contents (Elt Ideal))
    (x3 : (⟨Cert.KernelIdeal.S64, .f32⟩ : BufTy).Contents (Elt Ideal))
    (x4 : (⟨Cert.KernelIdeal.S8192x2, .i32⟩ : BufTy).Contents (Elt Ideal)) :
    Cert.KernelIdeal.Term.result x0 x1 x2 x3 x4 = Cert.ReferenceIdeal.Read.val_main_v50 (F := Ideal) x0 x1 x2 x3 x4 := by
  unfold Cert.KernelIdeal.Term.result
  rw [aggregated_eq]
  rfl

end Cert.Bridge

end
-- ==== Proof.lean ====
/-
  A graph convolution layer, out = D^(-1/2) (A + I) D^(-1/2) (X W) + b with the rows named by an index array gathered at
  the end, computed two ways.

  The reference does it with array operations only: the edge list with one self loop per node, the degree of every node
  by an accumulating scatter of ones, the per-edge weight deg(src)^(-1/2)·deg(dst)^(-1/2), the product X W, its rows
  gathered by source node and scaled by the edge weights, an accumulating scatter by destination node, the bias, the final
  gather.  The kernel's program does the product X W in a grid computation over blocks of 10000 rows (operands rounded
  to a shorter format first, which at the ideal values is the identity) and the scaling of the gathered rows in a second
  grid computation over 806 blocks of 4096 rows, for which it appends 1376 zero rows, zero weights and zero destination
  words; everything else it does with the reference's own operations.

  At the ideal values the two results are equal, entry by entry, on every input:
  * a matrix product is Σ_l X(r, l)·W(l, h) however it is blocked (`Bridge.product_eq`, over the first grid
    computation's result array `LinearRegion.final`);
  * scaling row n by weight n is the same product of two extended reals in both programs (`ScaleRegion.final`);
  * the 1376 appended rows are 0·0 = 0 and add nothing to whichever row they are accumulated into
    (`ScatterPad.scatter_padded`); sums of extended reals do not depend on order or grouping.
  No law used here needs finite entries, so the precondition is not opened.

  The kernel's run with its result buffer named is `NamedRun.run_named`; `HostChain.result` reads that buffer back to
  the arguments; the reference's run is its generated one.  Nothing was rewritten when the kernel's program was read at the
  ideal values, so there is nothing to preserve.
-/
import proofs.«175360_j16801912062662_1_alg».proof.Defs
import proofs.«175360_j16801912062662_1_alg».proof.Proof.Gen.Kernel
import proofs.«175360_j16801912062662_1_alg».proof.Proof.Gen.Kernel.Skeleton
import proofs.«175360_j16801912062662_1_alg».proof.Proof.Gen.Kernel.Launch
import proofs.«175360_j16801912062662_1_alg».proof.Proof.Gen.Kernel.Points
import proofs.«175360_j16801912062662_1_alg».proof.Proof.Gen.Kernel.Frame
import proofs.«175360_j16801912062662_1_alg».proof.Proof.Gen.KernelIdeal
import proofs.«175360_j16801912062662_1_alg».proof.Proof.Gen.KernelIdeal.Skeleton
import proofs.«175360_j16801912062662_1_alg».proof.Proof.Gen.KernelIdeal.Launch
import proofs.«175360_j16801912062662_1_alg».proof.Proof.Gen.KernelIdeal.Points
import proofs.«175360_j16801912062662_1_alg».proof.Proof.Gen.KernelIdeal.Frame
import proofs.«175360_j16801912062662_1_alg».proof.Proof.Gen.ReferenceIdeal
import proofs.«175360_j16801912062662_1_alg».proof.Proof.Gen.Pre_finite_inputs
import proofs.«175360_j16801912062662_1_alg».proof.Proof.Gen.ReferenceIdeal.Run
import proofs.«175360_j16801912062662_1_alg».proof.Proof.Gen.ReferenceIdeal.Read
import proofs.«175360_j16801912062662_1_alg».proof.Proof.KernelRun
import proofs.«175360_j16801912062662_1_alg».proof.Proof.HostChain
import proofs.«175360_j16801912062662_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program as printed runs to the end without a fault and leaves its arguments alone. -/
theorem frame_kernel : Cert.frame_Kernel := fun m ρ _ => Cert.Kernel.Gen.frame m ρ

/-- So does the kernel's program read at the ideal values. -/
theorem frame_kernel_ideal : Cert.frame_KernelIdeal := fun m ρ _ => Cert.KernelIdeal.Gen.frame m ρ

/-- So does the reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the same result: the kernel's result buffer
    holds its term of the arguments, the reference's holds its last stage of the arguments, and the two are one function. -/
theorem algebraic : Cert.algebraic_KernelIdeal_ReferenceIdeal := by
  intro m ρ m' ρ' _ hagree
  refine ⟨fun c => Cert.KernelIdeal.Term.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.HostChain.result m ρ c), (h c).2⟩)
      (Cert.KernelIdeal.NamedRun.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v50_eq, (hagree c).1, (hagree c).2.1, (hagree c).2.2.1, (hagree c).2.2.2.1,
      (hagree c).2.2.2.2]
    exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
